-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x64x64 : Shape := ⟨4, ![32, 256, 64, 64]⟩
abbrev S1x256x1x1 : Shape := ⟨4, ![1, 256, 1, 1]⟩
abbrev S_ : Shape := ⟨0, ![]⟩

class Facts : Prop where
  bcast_S_S32x256x64x64 : S_.BroadcastsInDim S32x256x64x64 (![] : Fin 0 → Fin S32x256x64x64.rank)
  reducesTo_S32x256x64x64_S_d0_1_2_3 : S32x256x64x64.ReducesTo [0, 1, 2, 3] S_
  h_S_ : 0 < S_.numel
  bcast_S_S1x256x1x1 : S_.BroadcastsInDim S1x256x1x1 (![] : Fin 0 → Fin S1x256x1x1.rank)
  reducesTo_S1x256x1x1_S_d0_1_2_3 : S1x256x1x1.ReducesTo [0, 1, 2, 3] S_

variable [Facts]

def fn_part1 {F : FTy → Type} [FloatOps F] (main_v13 : IVec S_ 1) (main_v16 : IVec S1x256x1x1 1) : IVec S_ 1 :=
  let main_c_5 : IVec S_ 1 := constantI S_ 1 1#1
  let main_v17 : IVec S_ 1 := (fun x v => Host.reduce IntOp.andi x v reducesTo_S1x256x1x1_S_d0_1_2_3 h_S_) main_v16 main_c_5
  let main_v18 : IVec S_ 1 := andi main_v13 main_v17
  main_v18

def fn {F : FTy → Type} [FloatOps F] (main_arg0 : FVec F S32x256x64x64 .f32) (main_arg1 : FVec F S1x256x1x1 .f32) (main_arg2 : FVec F S1x256x1x1 .f32) (main_arg3 : FVec F S1x256x1x1 .f32) : IVec S_ 1 :=
  let main_v0 : FVec F S32x256x64x64 .f32 := Host.absf main_arg0
  let main_cst : FVec F S_ .f32 := constant S_ .f32 0x7F800000#32
  let main_v1 : FVec F S32x256x64x64 .f32 := broadcastInDim S32x256x64x64 ![] bcast_S_S32x256x64x64 main_cst
  let main_v2 : IVec S32x256x64x64 1 := cmpf .olt main_v0 main_v1
  let main_c : IVec S_ 1 := constantI S_ 1 1#1
  let main_v3 : IVec S_ 1 := (fun x v => Host.reduce IntOp.andi x v reducesTo_S32x256x64x64_S_d0_1_2_3 h_S_) main_v2 main_c
  let main_v4 : FVec F S1x256x1x1 .f32 := Host.absf main_arg1
  let main_cst_0 : FVec F S_ .f32 := constant S_ .f32 0x7F800000#32
  let main_v5 : FVec F S1x256x1x1 .f32 := broadcastInDim S1x256x1x1 ![] bcast_S_S1x256x1x1 main_cst_0
  let main_v6 : IVec S1x256x1x1 1 := cmpf .olt main_v4 main_v5
  let main_c_1 : IVec S_ 1 := constantI S_ 1 1#1
  let main_v7 : IVec S_ 1 := (fun x v => Host.reduce IntOp.andi x v reducesTo_S1x256x1x1_S_d0_1_2_3 h_S_) main_v6 main_c_1
  let main_v8 : IVec S_ 1 := andi main_v3 main_v7
  let main_v9 : FVec F S1x256x1x1 .f32 := Host.absf main_arg2
  let main_cst_2 : FVec F S_ .f32 := constant S_ .f32 0x7F800000#32
  let main_v10 : FVec F S1x256x1x1 .f32 := broadcastInDim S1x256x1x1 ![] bcast_S_S1x256x1x1 main_cst_2
  let main_v11 : IVec S1x256x1x1 1 := cmpf .olt main_v9 main_v10
  let main_c_3 : IVec S_ 1 := constantI S_ 1 1#1
  let main_v12 : IVec S_ 1 := (fun x v => Host.reduce IntOp.andi x v reducesTo_S1x256x1x1_S_d0_1_2_3 h_S_) main_v11 main_c_3
  let main_v13 : IVec S_ 1 := andi main_v8 main_v12
  let main_v14 : FVec F S1x256x1x1 .f32 := Host.absf main_arg3
  let main_cst_4 : FVec F S_ .f32 := constant S_ .f32 0x7F800000#32
  let main_v15 : FVec F S1x256x1x1 .f32 := broadcastInDim S1x256x1x1 ![] bcast_S_S1x256x1x1 main_cst_4
  let main_v16 : IVec S1x256x1x1 1 := cmpf .olt main_v14 main_v15
  fn_part1 (F := F) main_v13 main_v16
-- ==== Kernel.lean ====
abbrev S32x256x64x64 : Shape := ⟨4, ![32, 256, 64, 64]⟩
abbrev S1x256x1x1 : Shape := ⟨4, ![1, 256, 1, 1]⟩
abbrev S32x256x4096 : Shape := ⟨3, ![32, 256, 4096]⟩
abbrev S1x256x1 : Shape := ⟨3, ![1, 256, 1]⟩
abbrev S1x256x4096 : Shape := ⟨3, ![1, 256, 4096]⟩
abbrev S1x256 : Shape := ⟨2, ![1, 256]⟩
abbrev S1x1 : Shape := ⟨2, ![1, 1]⟩
abbrev S1x1x1 : Shape := ⟨3, ![1, 1, 1]⟩

abbrev nBuf : Space → Nat
  | .hbm => 10
  | .vmem => 7
  | .smem => 0
  | _ => 0

abbrev bufTy : (tb : Table) → Fin (tcTables nBuf tb) → BufTy
  | .hbm, ⟨0, _⟩ => ⟨S32x256x64x64, .f32⟩
  | .hbm, ⟨1, _⟩ => ⟨S1x256x1x1, .f32⟩
  | .hbm, ⟨2, _⟩ => ⟨S1x256x1x1, .f32⟩
  | .hbm, ⟨3, _⟩ => ⟨S1x256x1x1, .f32⟩
  | .hbm, ⟨4, _⟩ => ⟨S32x256x4096, .f32⟩
  | .hbm, ⟨5, _⟩ => ⟨S1x256x1, .f32⟩
  | .hbm, ⟨6, _⟩ => ⟨S1x256x1, .f32⟩
  | .hbm, ⟨7, _⟩ => ⟨S1x256x1, .f32⟩
  | .hbm, ⟨8, _⟩ => ⟨S32x256x4096, .f32⟩
  | .hbm, ⟨9, _⟩ => ⟨S32x256x64x64, .f32⟩
  | .local _ .vmem, ⟨0, _⟩ => ⟨S1x256x4096, .f32⟩
  | .local _ .vmem, ⟨1, _⟩ => ⟨S1x256x4096, .f32⟩
  | .local _ .vmem, ⟨2, _⟩ => ⟨S1x256x1, .f32⟩
  | .local _ .vmem, ⟨3, _⟩ => ⟨S1x256x1, .f32⟩
  | .local _ .vmem, ⟨4, _⟩ => ⟨S1x256x1, .f32⟩
  | .local _ .vmem, ⟨5, _⟩ => ⟨S1x256x4096, .f32⟩
  | .local _ .vmem, ⟨6, _⟩ => ⟨S1x256x4096, .f32⟩
  | _, _ => ⟨S32x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S32x256x64x64_S32x256x4096 : S32x256x64x64.ShapeCasts S32x256x4096
  shapeCasts_S1x256x1x1_S1x256x1 : S1x256x1x1.ShapeCasts S1x256x1
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S1x256x4096 : S1x256x4096.ShapeCasts S1x256x4096
  inb_S1x256x1_S1x256x1_0_0_0 : ∀ a, (![0, 0, 0] : Fin 3 → Nat) a + S1x256x1.size a ≤ S1x256x1.size a
  h_S1x256x1 : 0 < S1x256x1.numel
  shapeCasts_S1x256x1_S1x256x1 : S1x256x1.ShapeCasts S1x256x1
  reduces_S1x256x4096_S1x256 : S1x256x4096.Reduces [2] S1x256
  shapeCasts_S1x256_S1x256x1 : S1x256.ShapeCasts S1x256x1
  broadcasts_S1x256x1_S1x256x4096 : S1x256x1.Broadcasts S1x256x4096
  reduces_S1x256x1_S1x1 : S1x256x1.Reduces [1] S1x1
  shapeCasts_S1x1_S1x1x1 : S1x1.ShapeCasts S1x1x1
  broadcasts_S1x1x1_S1x256x4096 : S1x1x1.Broadcasts S1x256x4096
  shapeCasts_S32x256x4096_S32x256x64x64 : S32x256x4096.ShapeCasts S32x256x64x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S32x256x4096.size a
  hwx0_0 : ∀ i : grid0.Coords, EltTy.bits .f32 = 32 ∨ (Rect.block (s := S32x256x4096) S1x256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256x1.size a ≤ S1x256x1.size a
  hwx0_1 : ∀ i : grid0.Coords, EltTy.bits .f32 = 32 ∨ (Rect.block (s := S1x256x1) S1x256x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256x1.size a ≤ S1x256x1.size a
  hwx0_2 : ∀ i : grid0.Coords, EltTy.bits .f32 = 32 ∨ (Rect.block (s := S1x256x1) S1x256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256x1.size a ≤ S1x256x1.size a
  hwx0_3 : ∀ i : grid0.Coords, EltTy.bits .f32 = 32 ∨ (Rect.block (s := S1x256x1) S1x256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x4096.size a ≤ S32x256x4096.size a
  hwx0_4 : ∀ i : grid0.Coords, EltTy.bits .f32 = 32 ∨ (Rect.block (s := S32x256x4096) S1x256x4096.size (cc0_transform_4 i) (hinb0_4 i)).WholeWords (EltTy.packing .f32)

variable [Facts₀]

abbrev win0_0 : Pipeline.Window sig grid0 :=
  Pipeline.Window.ofSpec (Memref.whole main_v0) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x256x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x256x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x256x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x256x64x64 : Shape := ⟨4, ![32, 256, 64, 64]⟩
abbrev S1x256x1x1 : Shape := ⟨4, ![1, 256, 1, 1]⟩
abbrev S_ : Shape := ⟨0, ![]⟩
abbrev S32x256 : Shape := ⟨2, ![32, 256]⟩
abbrev S32x256x1x1 : Shape := ⟨4, ![32, 256, 1, 1]⟩
abbrev S32 : Shape := ⟨1, ![32]⟩
abbrev S32x1x1x1 : Shape := ⟨4, ![32, 1, 1, 1]⟩

abbrev nBuf : Space → Nat
  | .hbm => 62
  | .vmem => 0
  | .smem => 0
  | _ => 0

abbrev bufTy : (tb : Table) → Fin (tcTables nBuf tb) → BufTy
  | .hbm, ⟨0, _⟩ => ⟨S32x256x64x64, .f32⟩
  | .hbm, ⟨1, _⟩ => ⟨S1x256x1x1, .f32⟩
  | .hbm, ⟨2, _⟩ => ⟨S1x256x1x1, .f32⟩
  | .hbm, ⟨3, _⟩ => ⟨S1x256x1x1, .f32⟩
  | .hbm, ⟨4, _⟩ => ⟨S_, .f32⟩
  | .hbm, ⟨5, _⟩ => ⟨S32x256, .f32⟩
  | .hbm, ⟨6, _⟩ => ⟨S32x256x1x1, .f32⟩
  | .hbm, ⟨7, _⟩ => ⟨S_, .f32⟩
  | .hbm, ⟨8, _⟩ => ⟨S32x256x1x1, .f32⟩
  | .hbm, ⟨9, _⟩ => ⟨S32x256x1x1, .f32⟩
  | .hbm, ⟨10, _⟩ => ⟨S32x256x64x64, .f32⟩
  | .hbm, ⟨11, _⟩ => ⟨S32x256x64x64, .f32⟩
  | .hbm, ⟨12, _⟩ => ⟨S32x256x64x64, .f32⟩
  | .hbm, ⟨13, _⟩ => ⟨S_, .f32⟩
  | .hbm, ⟨14, _⟩ => ⟨S32x256, .f32⟩
  | .hbm, ⟨15, _⟩ => ⟨S32x256x1x1, .f32⟩
  | .hbm, ⟨16, _⟩ => ⟨S_, .f32⟩
  | .hbm, ⟨17, _⟩ => ⟨S32x256x1x1, .f32⟩
  | .hbm, ⟨18, _⟩ => ⟨S32x256x1x1, .f32⟩
  | .hbm, ⟨19, _⟩ => ⟨S32x256x64x64, .f32⟩
  | .hbm, ⟨20, _⟩ => ⟨S32x256x64x64, .f32⟩
  | .hbm, ⟨21, _⟩ => ⟨S_, .f32⟩
  | .hbm, ⟨22, _⟩ => ⟨S32x256x1x1, .f32⟩
  | .hbm, ⟨23, _⟩ => ⟨S32x256x1x1, .f32⟩
  | .hbm, ⟨24, _⟩ => ⟨S32x256x1x1, .f32⟩
  | .hbm, ⟨25, _⟩ => ⟨S32x256x64x64, .f32⟩
  | .hbm, ⟨26, _⟩ => ⟨S32x256x64x64, .f32⟩
  | .hbm, ⟨27, _⟩ => ⟨S_, .f32⟩
  | .hbm, ⟨28, _⟩ => ⟨S32, .f32⟩
  | .hbm, ⟨29, _⟩ => ⟨S32x1x1x1, .f32⟩
  | .hbm, ⟨30, _⟩ => ⟨S_, .f32⟩
  | .hbm, ⟨31, _⟩ => ⟨S32x1x1x1, .f32⟩
  | .hbm, ⟨32, _⟩ => ⟨S32x1x1x1, .f32⟩
  | .hbm, ⟨33, _⟩ => ⟨S32x256x64x64, .f32⟩
  | .hbm, ⟨34, _⟩ => ⟨S32x256x64x64, .f32⟩
  | .hbm, ⟨35, _⟩ => ⟨S32x256x64x64, .f32⟩
  | .hbm, ⟨36, _⟩ => ⟨S_, .f32⟩
  | .hbm, ⟨37, _⟩ => ⟨S32, .f32⟩
  | .hbm, ⟨38, _⟩ => ⟨S32x1x1x1, .f32⟩
  | .hbm, ⟨39, _⟩ => ⟨S_, .f32⟩
  | .hbm, ⟨40, _⟩ => ⟨S32x1x1x1, .f32⟩
  | .hbm, ⟨41, _⟩ => ⟨S32x1x1x1, .f32⟩
  | .hbm, ⟨42, _⟩ => ⟨S32x256x64x64, .f32⟩
  | .hbm, ⟨43, _⟩ => ⟨S32x256x64x64, .f32⟩
  | .hbm, ⟨44, _⟩ => ⟨S_, .f32⟩
  | .hbm, ⟨45, _⟩ => ⟨S32x1x1x1, .f32⟩
  | .hbm, ⟨46, _⟩ => ⟨S32x1x1x1, .f32⟩
  | .hbm, ⟨47, _⟩ => ⟨S32x1x1x1, .f32⟩
  | .hbm, ⟨48, _⟩ => ⟨S32x256x64x64, .f32⟩
  | .hbm, ⟨49, _⟩ => ⟨S32x256x64x64, .f32⟩
  | .hbm, ⟨50, _⟩ => ⟨S32x256x64x64, .f32⟩
  | .hbm, ⟨51, _⟩ => ⟨S32x256x64x64, .f32⟩
  | .hbm, ⟨52, _⟩ => ⟨S_, .f32⟩
  | .hbm, ⟨53, _⟩ => ⟨S1x256x1x1, .f32⟩
  | .hbm, ⟨54, _⟩ => ⟨S1x256x1x1, .f32⟩
  | .hbm, ⟨55, _⟩ => ⟨S32x256x64x64, .f32⟩
  | .hbm, ⟨56, _⟩ => ⟨S32x256x64x64, .f32⟩
  | .hbm, ⟨57, _⟩ => ⟨S32x256x64x64, .f32⟩
  | .hbm, ⟨58, _⟩ => ⟨S32x256x64x64, .f32⟩
  | .hbm, ⟨59, _⟩ => ⟨S32x256x64x64, .f32⟩
  | .hbm, ⟨60, _⟩ => ⟨S32x256x64x64, .f32⟩
  | .hbm, ⟨61, _⟩ => ⟨S32x256x64x64, .f32⟩
  | _, _ => ⟨S32x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_9 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]

class Facts₀ : Prop where
  reducesTo_S32x256x64x64_S32x256_d2_3 : S32x256x64x64.ReducesTo [2, 3] S32x256
  h_S_ : 0 < S_.numel
  bcast_S32x256_S32x256x1x1_0_1 : S32x256.BroadcastsInDim S32x256x1x1 (![0, 1] : Fin 2 → Fin S32x256x1x1.rank)
  bcast_S_S32x256x1x1 : S_.BroadcastsInDim S32x256x1x1 (![] : Fin 0 → Fin S32x256x1x1.rank)
  bcast_S32x256x1x1_S32x256x64x64_0_1_2_3 : S32x256x1x1.BroadcastsInDim S32x256x64x64 (![0, 1, 2, 3] : Fin 4 → Fin S32x256x64x64.rank)
  reducesTo_S32x256x64x64_S32_d1_2_3 : S32x256x64x64.ReducesTo [1, 2, 3] S32
  bcast_S32_S32x1x1x1_0 : S32.BroadcastsInDim S32x1x1x1 (![0] : Fin 1 → Fin S32x1x1x1.rank)
  bcast_S_S32x1x1x1 : S_.BroadcastsInDim S32x1x1x1 (![] : Fin 0 → Fin S32x1x1x1.rank)
  bcast_S32x1x1x1_S32x256x64x64_0_1_2_3 : S32x1x1x1.BroadcastsInDim S32x256x64x64 (![0, 1, 2, 3] : Fin 4 → Fin S32x256x64x64.rank)
  bcast_S1x256x1x1_S32x256x64x64_0_1_2_3 : S1x256x1x1.BroadcastsInDim S32x256x64x64 (![0, 1, 2, 3] : Fin 4 → Fin S32x256x64x64.rank)
  bcast_S_S1x256x1x1 : S_.BroadcastsInDim S1x256x1x1 (![] : Fin 0 → Fin S1x256x1x1.rank)

variable [Facts₀]

class Facts : Prop extends Facts₀ where

variable [Facts]
-- ==== Proof.Spec.lean ====
/-
  Instance-layer normalisation of x : [32, 256, 64, 64] with per-channel parameters ρ, γ, β : [1, 256, 1, 1], as
  functions on the extended reals.

  For a sample n and a channel c, the channel's 4096 values are read in row-major order of its 64 × 64 image:
  position k is row k / 64, column k % 64. The instance statistics of a channel are the mean of its 4096 values and
  the mean of the squared deviations from it. The layer statistics of a sample are stated twice: once from the
  per-channel statistics (the mean of the 256 channel means; the mean over channels of variance + mean², less the
  squared layer mean) and once directly (the mean of all 256 · 4096 values; the mean of their squared deviations).
  The output at (n, c, h, w) is ((x − μ_c)·rsqrt(σ²_c + ε)·ρ_c + (x − L)·rsqrt(V + ε)·(1 − ρ_c))·γ_c + β_c.
  The two forms of the layer statistics agree when every entry of x is a real number (Algebra.lean).
-/
import Idealize.ShloMosaic.PureOps.Ideal
import Idealize.ShloMosaic.Lib.ValueIdx

noncomputable section

namespace Cert.ILN

open Idealize.ShloMosaic Idealize.ShloMosaic.ValueIdx

/-- The input's shape and the parameters' shape. -/
abbrev SX : Shape := ⟨4, ![32, 256, 64, 64]⟩
abbrev SP : Shape := ⟨4, ![1, 256, 1, 1]⟩

/-- Position k of a flattened 64 × 64 image lies in row k / 64 … -/
def rowOf (k : Fin 4096) : Fin 64 := ⟨k.val / 64, by omega⟩
/-- … and column k % 64. -/
def colOf (k : Fin 4096) : Fin 64 := ⟨k.val % 64, by omega⟩

/-- Sample n of x as 256 channels of 4096 values each. -/
def chan (X : SX.Idx → EReal) (n : Fin 32) (c : Fin 256) (k : Fin 4096) : EReal := X (ix4 n c (rowOf k) (colOf k))

/-- The divisors 4096 = 64·64, 256 and 2²⁰ = 256·4096, the ε under the square roots, and 1, as the programs spell them. -/
def c4096 : EReal := Ideal.ofBits .f32 0x45800000#32
def c256 : EReal := Ideal.ofBits .f32 0x43800000#32
def c2p20 : EReal := Ideal.ofBits .f32 0x49800000#32
def eps : EReal := Ideal.ofBits .f32 0x322BCC77#32
def one : EReal := Ideal.ofBits .f32 0x3F800000#32

/-- A channel's mean … -/
def mean (a : Fin 4096 → EReal) : EReal := Ideal.div (∑ k, a k) c4096
/-- … and its (biased) variance. -/
def var (a : Fin 4096 → EReal) : EReal := Ideal.div (∑ k, (a k - mean a) * (a k - mean a)) c4096

/-- The layer mean as the mean of the channel means, -/
def lmeanK (A : Fin 256 → Fin 4096 → EReal) : EReal := Ideal.div (∑ c, mean (A c)) c256
/-- and the layer variance as the mean over channels of σ²_c + μ_c², less the squared layer mean. -/
def lvarK (A : Fin 256 → Fin 4096 → EReal) : EReal :=
  Ideal.div (∑ c, (var (A c) + mean (A c) * mean (A c))) c256 - lmeanK A * lmeanK A

/-- The layer mean as the mean of all the sample's values, -/
def lmeanR (A : Fin 256 → Fin 4096 → EReal) : EReal := Ideal.div (∑ c, ∑ k, A c k) c2p20
/-- and the layer variance as the mean of their squared deviations from it. -/
def lvarR (A : Fin 256 → Fin 4096 → EReal) : EReal :=
  Ideal.div (∑ c, ∑ k, (A c k - lmeanR A) * (A c k - lmeanR A)) c2p20

/-- The two normalisations of one value blended by ρ, then scaled by γ and shifted by β. -/
def mix (x mu v L V rho gam bet : EReal) : EReal :=
  ((x - mu) * Ideal.rsqrt (v + eps) * rho + (x - L) * Ideal.rsqrt (V + eps) * (one - rho)) * gam + bet

/-- The result with the layer statistics taken from the per-channel statistics. -/
def outK (X : SX.Idx → EReal) (Rho Gam Bet : SP.Idx → EReal) (n : Fin 32) (c : Fin 256) (h w : Fin 64) : EReal :=
  mix (X (ix4 n c h w)) (mean (chan X n c)) (var (chan X n c)) (lmeanK (chan X n)) (lvarK (chan X n))
    (Rho (ix4 0 c 0 0)) (Gam (ix4 0 c 0 0)) (Bet (ix4 0 c 0 0))

/-- The result with the layer statistics taken directly. -/
def outR (X : SX.Idx → EReal) (Rho Gam Bet : SP.Idx → EReal) (n : Fin 32) (c : Fin 256) (h w : Fin 64) : EReal :=
  mix (X (ix4 n c h w)) (mean (chan X n c)) (var (chan X n c)) (lmeanR (chan X n)) (lvarR (chan X n))
    (Rho (ix4 0 c 0 0)) (Gam (ix4 0 c 0 0)) (Bet (ix4 0 c 0 0))

/-- Both as whole arrays. -/
def GK (X : SX.Idx → EReal) (Rho Gam Bet : SP.Idx → EReal) : SX.Idx → EReal :=
  fun i => outK X Rho Gam Bet (i 0) (i 1) (i 2) (i 3)
def GR (X : SX.Idx → EReal) (Rho Gam Bet : SP.Idx → EReal) : SX.Idx → EReal :=
  fun i => outR X Rho Gam Bet (i 0) (i 1) (i 2) (i 3)

end Cert.ILN

end
-- ==== Proof.Algebra.lean ====
/-
  The two forms of the layer statistics agree on real data.
  With N = 4096 values per channel and C = 256 channels: the mean of the channel means is the mean of all C·N
  values; and since a channel's variance plus its squared mean is the mean of its squares, the mean over channels of
  σ²_c + μ_c² is the mean of all squares, so subtracting the squared layer mean gives the mean squared deviation from
  the layer mean.
-/
import proofs.«146430_j1580547973998_1_alg».proof.Proof.Spec
import Mathlib.Algebra.BigOperators.Field
import Mathlib.Tactic.Ring
import Mathlib.Tactic.FieldSimp
import Mathlib.Tactic.NormNum

noncomputable section

namespace Cert.ILN

open Idealize.ShloMosaic Idealize.ShloMosaic.ValueIdx

/-- The three divisors are the real numbers 4096, 256 and 2²⁰: each pattern is a normal float with zero fraction. -/
theorem c4096_eq : c4096 = ((4096 : ℝ) : EReal) := by
  unfold c4096
  simp [Ideal.ofBits, Ideal.ieee, -EReal.coe_mul]
  norm_num

theorem c256_eq : c256 = ((256 : ℝ) : EReal) := by
  unfold c256
  simp [Ideal.ofBits, Ideal.ieee, -EReal.coe_mul]
  norm_num

theorem c2p20_eq : c2p20 = ((1048576 : ℝ) : EReal) := by
  unfold c2p20
  simp [Ideal.ofBits, Ideal.ieee, -EReal.coe_mul]
  norm_num

/-- A finite sum of reals, taken in the extended reals, is the real sum. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The mean of a real channel is the real quotient of its sum by 4096. -/
theorem mean_coe (a : Fin 4096 → ℝ) :
    mean (fun k => (a k : EReal)) = (((∑ k, a k) / 4096 : ℝ) : EReal) := by
  unfold mean
  rw [c4096_eq, Ideal.div_coe (by norm_num), coe_sum, ← EReal.coe_mul]
  congr 1
  ring

/-- The variance of a real channel is the real mean of the squared deviations from the real mean. -/
theorem var_coe (a : Fin 4096 → ℝ) :
    var (fun k => (a k : EReal))
      = (((∑ k, (a k - (∑ j, a j) / 4096) * (a k - (∑ j, a j) / 4096)) / 4096 : ℝ) : EReal) := by
  unfold var
  rw [mean_coe]
  simp only [← EReal.coe_sub, ← EReal.coe_mul]
  rw [c4096_eq, Ideal.div_coe (by norm_num), coe_sum, ← EReal.coe_mul]
  congr 1
  ring

/-- The layer mean from the channel means, on real data. -/
theorem lmeanK_coe (a : Fin 256 → Fin 4096 → ℝ) :
    lmeanK (fun c k => (a c k : EReal)) = (((∑ c, (∑ k, a c k) / 4096) / 256 : ℝ) : EReal) := by
  unfold lmeanK
  simp only [mean_coe]
  rw [c256_eq, Ideal.div_coe (by norm_num), coe_sum, ← EReal.coe_mul]
  congr 1
  ring

/-- The layer mean taken directly, on real data. -/
theorem lmeanR_coe (a : Fin 256 → Fin 4096 → ℝ) :
    lmeanR (fun c k => (a c k : EReal)) = (((∑ c, ∑ k, a c k) / 1048576 : ℝ) : EReal) := by
  unfold lmeanR
  simp only [coe_sum]
  rw [c2p20_eq, Ideal.div_coe (by norm_num), ← EReal.coe_mul]
  congr 1
  ring

/-- The mean of the 256 channel means is the mean of all 256 · 4096 values. -/
theorem real_lmean (a : Fin 256 → Fin 4096 → ℝ) :
    (∑ c, (∑ k, a c k) / 4096) / 256 = (∑ c, ∑ k, a c k) / 1048576 := by
  rw [← Finset.sum_div]
  ring

/-- Squared deviations from any m: Σ (b − m)² = Σ b² − 2·m·Σ b + n·m², n the number of terms. -/
theorem sum_sq_dev {ι : Type*} (s : Finset ι) (b : ι → ℝ) (m : ℝ) :
    ∑ i ∈ s, (b i - m) * (b i - m)
      = ∑ i ∈ s, b i * b i - 2 * m * ∑ i ∈ s, b i + (s.card : ℝ) * (m * m) := by
  have h : ∀ i, (b i - m) * (b i - m) = b i * b i - 2 * m * b i + m * m := fun i => by ring
  simp only [h]
  rw [Finset.sum_add_distrib, Finset.sum_sub_distrib, ← Finset.mul_sum, Finset.sum_const, nsmul_eq_mul]

/-- The layer variance from the channel statistics, on real data. -/
theorem lvarK_coe (a : Fin 256 → Fin 4096 → ℝ) :
    lvarK (fun c k => (a c k : EReal))
      = (((∑ c, ((∑ k, (a c k - (∑ j, a c j) / 4096) * (a c k - (∑ j, a c j) / 4096)) / 4096
              + (∑ j, a c j) / 4096 * ((∑ j, a c j) / 4096))) / 256
          - (∑ c, (∑ k, a c k) / 4096) / 256 * ((∑ c, (∑ k, a c k) / 4096) / 256) : ℝ) : EReal) := by
  unfold lvarK
  rw [lmeanK_coe]
  simp only [mean_coe, var_coe, ← EReal.coe_mul, ← EReal.coe_add]
  rw [c256_eq, Ideal.div_coe (by norm_num), coe_sum, ← EReal.coe_mul, ← EReal.coe_sub]
  congr 1
  ring

/-- The layer variance taken directly, on real data. -/
theorem lvarR_coe (a : Fin 256 → Fin 4096 → ℝ) :
    lvarR (fun c k => (a c k : EReal))
      = (((∑ c, ∑ k, (a c k - (∑ c, ∑ k, a c k) / 1048576) * (a c k - (∑ c, ∑ k, a c k) / 1048576))
          / 1048576 : ℝ) : EReal) := by
  unfold lvarR
  rw [lmeanR_coe]
  simp only [← EReal.coe_sub, ← EReal.coe_mul, coe_sum]
  rw [c2p20_eq, Ideal.div_coe (by norm_num), ← EReal.coe_mul]
  congr 1
  ring

/-- The real identity behind the layer variance: the mean over channels of σ²_c + μ_c² is the mean of all squares,
    and the mean of all squares less L² is the mean squared deviation from L = (Σ a)/2²⁰. -/
theorem real_lvar (a : Fin 256 → Fin 4096 → ℝ) :
    (∑ c, ((∑ k, (a c k - (∑ j, a c j) / 4096) * (a c k - (∑ j, a c j) / 4096)) / 4096
          + (∑ j, a c j) / 4096 * ((∑ j, a c j) / 4096))) / 256
      - (∑ c, (∑ k, a c k) / 4096) / 256 * ((∑ c, (∑ k, a c k) / 4096) / 256)
    = (∑ c, ∑ k, (a c k - (∑ c, ∑ k, a c k) / 1048576) * (a c k - (∑ c, ∑ k, a c k) / 1048576)) / 1048576 := by
  have h1 : ∀ c, (∑ k, (a c k - (∑ j, a c j) / 4096) * (a c k - (∑ j, a c j) / 4096)) / 4096
      + (∑ j, a c j) / 4096 * ((∑ j, a c j) / 4096) = (∑ k, a c k * a c k) / 4096 := by
    intro c
    rw [sum_sq_dev, Finset.card_univ, Fintype.card_fin]
    push_cast
    ring
  have h2 : ∀ c, ∑ k, (a c k - (∑ c, ∑ k, a c k) / 1048576) * (a c k - (∑ c, ∑ k, a c k) / 1048576)
      = ∑ k, a c k * a c k - 2 * ((∑ c, ∑ k, a c k) / 1048576) * ∑ k, a c k
        + 4096 * ((∑ c, ∑ k, a c k) / 1048576 * ((∑ c, ∑ k, a c k) / 1048576)) := by
    intro c
    rw [sum_sq_dev, Finset.card_univ, Fintype.card_fin]
    push_cast
    ring
  simp only [h1, h2]
  rw [real_lmean, ← Finset.sum_div, Finset.sum_add_distrib, Finset.sum_sub_distrib, ← Finset.mul_sum,
    Finset.sum_const, Finset.card_univ, Fintype.card_fin, nsmul_eq_mul]
  push_cast
  ring

theorem lmeanK_eq_lmeanR (A : Fin 256 → Fin 4096 → EReal) (hA : ∀ c k, ∃ r : ℝ, A c k = (r : EReal)) :
    lmeanK A = lmeanR A := by
  choose a ha using hA
  have hA' : A = fun c k => (a c k : EReal) := by
    funext c k
    exact ha c k
  subst hA'
  rw [lmeanK_coe, lmeanR_coe, real_lmean]

theorem lvarK_eq_lvarR (A : Fin 256 → Fin 4096 → EReal) (hA : ∀ c k, ∃ r : ℝ, A c k = (r : EReal)) :
    lvarK A = lvarR A := by
  choose a ha using hA
  have hA' : A = fun c k => (a c k : EReal) := by
    funext c k
    exact ha c k
  subst hA'
  rw [lvarK_coe, lvarR_coe, real_lvar]

/-- So the two whole-array results agree when every entry of x is real. -/
theorem GK_eq_GR (X : SX.Idx → EReal) (Rho Gam Bet : SP.Idx → EReal) (hX : ∀ i, ∃ r : ℝ, X i = (r : EReal)) :
    GK X Rho Gam Bet = GR X Rho Gam Bet := by
  funext i
  have hA : ∀ c k, ∃ r : ℝ, chan X (i 0) c k = (r : EReal) := fun c k => hX _
  unfold GK GR outK outR
  rw [lmeanK_eq_lmeanR _ hA, lvarK_eq_lvarR _ hA]

end Cert.ILN

end
-- ==== Proof.Finite.lean ====
/-
  Under the precondition every entry of x is a real number: the precondition's first conjunct says |x| < +∞ at every
  index, and an extended real of finite absolute value is neither +∞ nor −∞.
-/
import proofs.«146430_j1580547973998_1_alg».proof.Pre_finite_inputs
import Idealize.ShloMosaic.PureOps.Ideal
import Idealize.ShloMosaic.Lib.ReduceAll
import Idealize.ShloMosaic.Lib.ValueIdx
import Idealize.ShloMosaic.Lib.IdealHost

noncomputable section

namespace Cert.ILN

open Idealize.ShloMosaic Idealize.ShloMosaic.ValueIdx

/-- An extended real whose absolute value max(v, −v) lies strictly below +∞ is a real number: at +∞ the maximum is
    +∞ itself, and at −∞ its negation is +∞. -/
theorem real_of_abs_lt_top (v : EReal) (hv : max v (-v) < ⊤) : ∃ t : ℝ, v = (t : EReal) := by
  induction v using EReal.rec with
  | bot => simp at hv
  | coe t => exact ⟨t, rfl⟩
  | top => simp at hv

theorem real_of_pre [Cert.Pre_finite_inputs.Facts]
    (x : FVec Ideal Cert.Pre_finite_inputs.S32x256x64x64 .f32) (r g b : FVec Ideal Cert.Pre_finite_inputs.S1x256x1x1 .f32)
    (h : Cert.Pre_finite_inputs.fn (F := Ideal) x r g b = fun _ => 1#1) :
    ∀ i, ∃ t : ℝ, x i = (t : EReal) := by
  intro i
  haveI : Subsingleton Cert.Pre_finite_inputs.S_.Idx := ⟨fun a b => funext fun d => d.elim0⟩
  have h0 := congrFun h ix0
  dsimp only [Cert.Pre_finite_inputs.fn, Cert.Pre_finite_inputs.fn_part1] at h0
  have h1 := (IntOp.andi_eq_one.1 h0).1
  have h2 := (IntOp.andi_eq_one.1 h1).1
  have h3 := (IntOp.andi_eq_one.1 h2).1
  have h4 := Host.reduce_andi_all _ _ _ _ _ h3 i
  rw [cmpf_apply, broadcastInDim_scalar_apply, constant_apply] at h4
  have h5 : max (x i) (-(x i)) < ⊤ := by
    have hc : Ideal.ofBits .f32 0x7F800000#32 = ⊤ := by simp [Ideal.ofBits, Ideal.ieee]
    rw [hc] at h4
    by_contra hn
    have : Ideal.cmp .olt (max (x i) (-(x i))) ⊤ = 0#1 := by simp [Ideal.cmp, hn]
    exact absurd (h4.symm.trans this) (by decide)
  exact real_of_abs_lt_top _ h5

end Cert.ILN

end
-- ==== Proof.Sums.lean ====
/-
  Sums over the fibres of a reduction of x : [32, 256, 64, 64], re-indexed by position.
  The indices that agree with (n, c) on the first two axes are exactly (n, c, k / 64, k % 64) for k < 4096, each once;
  the indices that agree with n on the first axis are exactly those for c < 256 and k < 4096, each once.
-/
import proofs.«146430_j1580547973998_1_alg».proof.Proof.Spec
import Idealize.ShloMosaic.PureOps.Reduce

noncomputable section

namespace Cert.ILN

open Idealize.ShloMosaic Idealize.ShloMosaic.ValueIdx

/-- Dropping the two image axes of an index leaves its sample and channel: the dropped index is (n, c) exactly when
    the index's first two coordinates are n and c. -/
theorem drop_hw_iff (h : SX.ReducesTo [2, 3] ⟨2, ![32, 256]⟩) (i : SX.Idx) (n : Fin 32) (c : Fin 256) :
    h.drop i = ix2 n c ↔ (i 0).val = n.val ∧ (i 1).val = c.val := by
  have h0 : (h.drop i 0 : Nat) = i 0 := h.drop_apply_val_of_eq i 0 0
  have h1 : (h.drop i 1 : Nat) = i 1 := h.drop_apply_val_of_eq i 1 1
  constructor
  · intro e
    rw [e] at h0 h1
    exact ⟨h0.symm, h1.symm⟩
  · rintro ⟨e0, e1⟩
    funext b
    match b with
    | ⟨0, _⟩ => exact Fin.ext (h0.trans e0)
    | ⟨1, _⟩ => exact Fin.ext (h1.trans e1)

/-- Dropping the channel and image axes of an index leaves its sample. -/
theorem drop_chw_iff (h : SX.ReducesTo [1, 2, 3] ⟨1, ![32]⟩) (i : SX.Idx) (n : Fin 32) :
    h.drop i = ix1 n ↔ (i 0).val = n.val := by
  have h0 : (h.drop i 0 : Nat) = i 0 := h.drop_apply_val_of_eq i 0 0
  constructor
  · intro e
    rw [e] at h0
    exact h0.symm
  · intro e0
    funext b
    match b with
    | ⟨0, _⟩ => exact Fin.ext (h0.trans e0)

/-- The position of (row, column) in the flattened image: 64 · row + column. -/
def posOf (i : SX.Idx) : Fin 4096 :=
  ⟨64 * (i 2).val + (i 3).val, by
    have h2 : (i 2).val < 64 := (i 2).isLt
    have h3 : (i 3).val < 64 := (i 3).isLt
    omega⟩

/-- The channel of an index as a number below 256. -/
def chOf (i : SX.Idx) : Fin 256 := ⟨(i 1).val, (i 1).isLt⟩

/-- Position 64 · row + column has row (64 · row + column) / 64 and column (64 · row + column) % 64, so an index
    is recovered from its sample, channel and position. -/
theorem ix4_posOf (i : SX.Idx) (n : Fin 32) (c : Fin 256) (e0 : (i 0).val = n.val) (e1 : (i 1).val = c.val) :
    ix4 n c (rowOf (posOf i)) (colOf (posOf i)) = i := by
  have h2 : (i 2).val < 64 := (i 2).isLt
  have h3 : (i 3).val < 64 := (i 3).isLt
  funext a
  match a with
  | ⟨0, _⟩ => exact Fin.ext e0.symm
  | ⟨1, _⟩ => exact Fin.ext e1.symm
  | ⟨2, _⟩ =>
    refine Fin.ext ?_
    show (64 * (i 2).val + (i 3).val) / 64 = (i 2).val
    omega
  | ⟨3, _⟩ =>
    refine Fin.ext ?_
    show (64 * (i 2).val + (i 3).val) % 64 = (i 3).val
    omega

/-- Conversely position k is 64 · (k / 64) + k % 64. -/
theorem posOf_ix4 (n : Fin 32) (c : Fin 256) (k : Fin 4096) : posOf (ix4 n c (rowOf k) (colOf k)) = k := by
  refine Fin.ext ?_
  show 64 * (k.val / 64) + k.val % 64 = k.val
  omega

theorem sum_fiber_hw (h : SX.ReducesTo [2, 3] ⟨2, ![32, 256]⟩) (f : SX.Idx → EReal) (n : Fin 32) (c : Fin 256) :
    ∑ i ∈ Finset.univ.filter (fun i => h.drop i = ix2 n c), f i = ∑ k : Fin 4096, f (ix4 n c (rowOf k) (colOf k)) := by
  rw [Finset.filter_congr (fun i _ => drop_hw_iff h i n c)]
  symm
  refine Finset.sum_nbij' (fun k => ix4 n c (rowOf k) (colOf k)) posOf ?_ ?_ ?_ ?_ ?_
  · intro k _
    exact Finset.mem_filter.mpr ⟨Finset.mem_univ _, rfl, rfl⟩
  · intro i _
    exact Finset.mem_univ _
  · intro k _
    exact posOf_ix4 n c k
  · intro i hi
    obtain ⟨_, e0, e1⟩ := Finset.mem_filter.mp hi
    exact ix4_posOf i n c e0 e1
  · intro k _
    rfl

theorem sum_fiber_chw (h : SX.ReducesTo [1, 2, 3] ⟨1, ![32]⟩) (f : SX.Idx → EReal) (n : Fin 32) :
    ∑ i ∈ Finset.univ.filter (fun i => h.drop i = ix1 n), f i
      = ∑ c : Fin 256, ∑ k : Fin 4096, f (ix4 n c (rowOf k) (colOf k)) := by
  rw [Finset.filter_congr (fun i _ => drop_chw_iff h i n), ← Finset.sum_product']
  symm
  refine Finset.sum_nbij' (fun p : Fin 256 × Fin 4096 => ix4 n p.1 (rowOf p.2) (colOf p.2))
    (fun i => (chOf i, posOf i)) ?_ ?_ ?_ ?_ ?_
  · intro p _
    exact Finset.mem_filter.mpr ⟨Finset.mem_univ _, rfl⟩
  · intro i _
    exact Finset.mem_product.mpr ⟨Finset.mem_univ _, Finset.mem_univ _⟩
  · intro p _
    exact Prod.ext (Fin.ext rfl) (posOf_ix4 n p.1 p.2)
  · intro i hi
    obtain ⟨_, e0⟩ := Finset.mem_filter.mp hi
    exact ix4_posOf i n (chOf i) e0 rfl
  · intro p _
    rfl

end Cert.ILN

end
-- ==== Proof.RefValue.lean ====
/-
  The reference's result, index by index, is the directly-stated form of the specification: its two sums over
  (h, w) are the channel's sums over positions, its two sums over (c, h, w) the sample's sums over channels and
  positions, and every broadcast reads the statistic of the index's own sample and channel.
-/
import proofs.«146430_j1580547973998_1_alg».proof.Proof.Gen.ReferenceIdeal.Read
import proofs.«146430_j1580547973998_1_alg».proof.Proof.Spec
import proofs.«146430_j1580547973998_1_alg».proof.Proof.Sums
import Idealize.ShloMosaic.Lib.IdealHost

noncomputable section

namespace Cert.ILN

open Idealize.ShloMosaic Idealize.ShloMosaic.ValueIdx Cert.ReferenceIdeal Cert.ReferenceIdeal.Gen
open Cert.ReferenceIdeal.Read

/-- A sum over the axes (h, w) from an initial array of zeros, read at (n, c): the sum over the channel's positions. -/
theorem ref_sum_hw (f : FVec Ideal S32x256x64x64 .f32)
    (init : S_.Idx → Ideal .f32) (hinit : ∀ i, init i = Ideal.ofBits .f32 0x00000000#32)
    (n : Fin 32) (c : Fin 256) :
    Host.reduceAdd (F := Ideal) (φ := .f32) f init reducesTo_S32x256x64x64_S32x256_d2_3 h_S_ (ix2 n c)
      = ∑ k : Fin 4096, f (ix4 n c (rowOf k) (colOf k)) := by
  rw [hostReduceAdd_apply]
  unfold Ideal.hostReduceAdd
  rw [hinit, Ideal.ofBits_zero_f32, zero_add]
  exact sum_fiber_hw _ f n c

/-- A sum over the axes (c, h, w) from an initial array of zeros, read at n: the sum over the sample's channels and positions. -/
theorem ref_sum_chw (f : FVec Ideal S32x256x64x64 .f32)
    (init : S_.Idx → Ideal .f32) (hinit : ∀ i, init i = Ideal.ofBits .f32 0x00000000#32)
    (n : Fin 32) :
    Host.reduceAdd (F := Ideal) (φ := .f32) f init reducesTo_S32x256x64x64_S32_d1_2_3 h_S_ (ix1 n)
      = ∑ c : Fin 256, ∑ k : Fin 4096, f (ix4 n c (rowOf k) (colOf k)) := by
  rw [hostReduceAdd_apply]
  unfold Ideal.hostReduceAdd
  rw [hinit, Ideal.ofBits_zero_f32, zero_add]
  exact sum_fiber_chw _ f n

/-- The channel mean: the reference's first quotient at (n, c, 0, 0). -/
theorem ref_v3_at (x0 : FVec Ideal S32x256x64x64 .f32) (n : Fin 32) (c : Fin 256) :
    val_main_v3 (F := Ideal) x0 (ix4 n c (0 : Fin 1) (0 : Fin 1)) = mean (chan x0 n c) := by
  rw [val_main_v3_apply, val_main_v1_apply, val_main_v2_apply, val_main_cst_0_apply]
  have hi : idx_main_v1 (ix4 n c (0 : Fin 1) (0 : Fin 1)) = ix2 n c := by
    funext a; match a with | ⟨0, _⟩ => rfl | ⟨1, _⟩ => rfl
  rw [hi]
  unfold val_main_v0
  rw [ref_sum_hw x0 (val_main_cst (F := Ideal)) (fun _ => rfl) n c]
  rfl

/-- The channel variance: the reference's second quotient at (n, c, 0, 0). -/
theorem ref_v10_at (x0 : FVec Ideal S32x256x64x64 .f32) (n : Fin 32) (c : Fin 256) :
    val_main_v10 (F := Ideal) x0 (ix4 n c (0 : Fin 1) (0 : Fin 1)) = var (chan x0 n c) := by
  rw [val_main_v10_apply, val_main_v8_apply, val_main_v9_apply, val_main_cst_2_apply]
  have hi : idx_main_v8 (ix4 n c (0 : Fin 1) (0 : Fin 1)) = ix2 n c := by
    funext a; match a with | ⟨0, _⟩ => rfl | ⟨1, _⟩ => rfl
  rw [hi]
  unfold val_main_v7
  rw [ref_sum_hw (val_main_v6 (F := Ideal) x0) (val_main_cst_1 (F := Ideal)) (fun _ => rfl) n c]
  have hs : ∀ k : Fin 4096, val_main_v6 (F := Ideal) x0 (ix4 n c (rowOf k) (colOf k))
      = (chan x0 n c k - mean (chan x0 n c)) * (chan x0 n c k - mean (chan x0 n c)) := by
    intro k
    have hj : idx_main_v4 (ix4 n c (rowOf k) (colOf k)) = ix4 n c (0 : Fin 1) (0 : Fin 1) := by
      funext a; match a with | ⟨0, _⟩ => rfl | ⟨1, _⟩ => rfl | ⟨2, _⟩ => rfl | ⟨3, _⟩ => rfl
    rw [val_main_v6_apply, val_main_v5_apply, val_main_v4_apply, hj, ref_v3_at]
    rfl
  rw [Finset.sum_congr rfl fun k _ => hs k]
  rfl

/-- The layer mean: the reference's third quotient at (n, 0, 0, 0). -/
theorem ref_v21_at (x0 : FVec Ideal S32x256x64x64 .f32) (n : Fin 32) :
    val_main_v21 (F := Ideal) x0 (ix4 n (0 : Fin 1) (0 : Fin 1) (0 : Fin 1)) = lmeanR (chan x0 n) := by
  rw [val_main_v21_apply, val_main_v19_apply, val_main_v20_apply, val_main_cst_5_apply]
  have hi : idx_main_v19 (ix4 n (0 : Fin 1) (0 : Fin 1) (0 : Fin 1)) = ix1 n := by
    funext a; match a with | ⟨0, _⟩ => rfl
  rw [hi]
  unfold val_main_v18
  rw [ref_sum_chw x0 (val_main_cst_4 (F := Ideal)) (fun _ => rfl) n]
  rfl

/-- The layer variance: the reference's fourth quotient at (n, 0, 0, 0). -/
theorem ref_v28_at (x0 : FVec Ideal S32x256x64x64 .f32) (n : Fin 32) :
    val_main_v28 (F := Ideal) x0 (ix4 n (0 : Fin 1) (0 : Fin 1) (0 : Fin 1)) = lvarR (chan x0 n) := by
  rw [val_main_v28_apply, val_main_v26_apply, val_main_v27_apply, val_main_cst_7_apply]
  have hi : idx_main_v26 (ix4 n (0 : Fin 1) (0 : Fin 1) (0 : Fin 1)) = ix1 n := by
    funext a; match a with | ⟨0, _⟩ => rfl
  rw [hi]
  unfold val_main_v25
  rw [ref_sum_chw (val_main_v24 (F := Ideal) x0) (val_main_cst_6 (F := Ideal)) (fun _ => rfl) n]
  have hs : ∀ (c : Fin 256) (k : Fin 4096), val_main_v24 (F := Ideal) x0 (ix4 n c (rowOf k) (colOf k))
      = (chan x0 n c k - lmeanR (chan x0 n)) * (chan x0 n c k - lmeanR (chan x0 n)) := by
    intro c k
    have hj : idx_main_v22 (ix4 n c (rowOf k) (colOf k)) = ix4 n (0 : Fin 1) (0 : Fin 1) (0 : Fin 1) := by
      funext a; match a with | ⟨0, _⟩ => rfl | ⟨1, _⟩ => rfl | ⟨2, _⟩ => rfl | ⟨3, _⟩ => rfl
    rw [val_main_v24_apply, val_main_v23_apply, val_main_v22_apply, hj, ref_v21_at]
    rfl
  rw [Finset.sum_congr rfl fun c _ => Finset.sum_congr rfl fun k _ => hs c k]
  rfl

/-- The reference's result is the directly-stated specification: each broadcast reads the statistic of the index's own
    sample and channel, and the elementwise operations are the blend's, in the same order. -/
theorem ref_eq_GR (x0 : (⟨S32x256x64x64, .f32⟩ : BufTy).Contents (Elt Ideal))
    (x1 x2 x3 : (⟨S1x256x1x1, .f32⟩ : BufTy).Contents (Elt Ideal)) :
    Cert.ReferenceIdeal.Read.val_main_v46 (F := Ideal) x0 x1 x2 x3 = GR x0 x1 x2 x3 := by
  funext i
  obtain ⟨n, c, hh, ww, rfl⟩ : ∃ (n : Fin 32) (c : Fin 256) (hh ww : Fin 64), i = ix4 n c hh ww :=
    ⟨i 0, i 1, i 2, i 3, eq_ix4 i⟩
  have h3 : idx_main_v11 (ix4 n c hh ww) = ix4 n c (0 : Fin 1) (0 : Fin 1) := by
    funext a; match a with | ⟨0, _⟩ => rfl | ⟨1, _⟩ => rfl | ⟨2, _⟩ => rfl | ⟨3, _⟩ => rfl
  have h16 : idx_main_v16 (ix4 n c hh ww) = ix4 n c (0 : Fin 1) (0 : Fin 1) := by
    funext a; match a with | ⟨0, _⟩ => rfl | ⟨1, _⟩ => rfl | ⟨2, _⟩ => rfl | ⟨3, _⟩ => rfl
  have h29 : idx_main_v29 (ix4 n c hh ww) = ix4 n (0 : Fin 1) (0 : Fin 1) (0 : Fin 1) := by
    funext a; match a with | ⟨0, _⟩ => rfl | ⟨1, _⟩ => rfl | ⟨2, _⟩ => rfl | ⟨3, _⟩ => rfl
  have h34 : idx_main_v34 (ix4 n c hh ww) = ix4 n (0 : Fin 1) (0 : Fin 1) (0 : Fin 1) := by
    funext a; match a with | ⟨0, _⟩ => rfl | ⟨1, _⟩ => rfl | ⟨2, _⟩ => rfl | ⟨3, _⟩ => rfl
  have h36 : idx_main_v36 (ix4 n c hh ww) = ix4 (0 : Fin 1) c (0 : Fin 1) (0 : Fin 1) := by
    funext a; match a with | ⟨0, _⟩ => rfl | ⟨1, _⟩ => rfl | ⟨2, _⟩ => rfl | ⟨3, _⟩ => rfl
  have h40 : idx_main_v40 (ix4 n c hh ww) = ix4 (0 : Fin 1) c (0 : Fin 1) (0 : Fin 1) := by
    funext a; match a with | ⟨0, _⟩ => rfl | ⟨1, _⟩ => rfl | ⟨2, _⟩ => rfl | ⟨3, _⟩ => rfl
  have h43 : idx_main_v43 (ix4 n c hh ww) = ix4 (0 : Fin 1) c (0 : Fin 1) (0 : Fin 1) := by
    funext a; match a with | ⟨0, _⟩ => rfl | ⟨1, _⟩ => rfl | ⟨2, _⟩ => rfl | ⟨3, _⟩ => rfl
  have h45 : idx_main_v45 (ix4 n c hh ww) = ix4 (0 : Fin 1) c (0 : Fin 1) (0 : Fin 1) := by
    funext a; match a with | ⟨0, _⟩ => rfl | ⟨1, _⟩ => rfl | ⟨2, _⟩ => rfl | ⟨3, _⟩ => rfl
  rw [val_main_v46_apply, val_main_v44_apply, val_main_v42_apply, val_main_v37_apply, val_main_v41_apply,
    val_main_v17_apply, val_main_v35_apply, val_main_v12_apply, val_main_v30_apply,
    val_main_v11_apply, val_main_v16_apply, val_main_v29_apply, val_main_v34_apply,
    val_main_v36_apply, val_main_v40_apply, val_main_v43_apply, val_main_v45_apply,
    h3, h16, h29, h34, h36, h40, h43, h45,
    val_main_v15_apply, val_main_v14_apply, val_main_v13_apply, val_main_cst_3_apply,
    val_main_v33_apply, val_main_v32_apply, val_main_v31_apply, val_main_cst_8_apply,
    val_main_v39_apply, val_main_v38_apply, val_main_cst_9_apply,
    ref_v3_at, ref_v10_at, ref_v21_at, ref_v28_at]
  rfl

end Cert.ILN

end
-- ==== Proof.KernelBody.lean ====
/-
  What the kernel body stores, index by index: at channel c and position k of the block it is the blend of the two
  normalisations of the block's value there, with the channel's statistics taken over the block's row c and the layer
  statistics taken from the 256 per-channel statistics of the block.

  First the layout operations the body uses, read at an index given by coordinates (a [1, a] array cast to [1, a, 1];
  a [1, 256, 1] column and a [1, 1, 1] value broadcast to [1, 256, 4096]; a sum over the last axis of a [1, 256, 4096]
  block and over the middle axis of a [1, 256, 1] column as sums over that axis's coordinates). Then each value of the
  body in the order the body computes it: the row means, the deviations from them, the row variances, the instance
  normalisation, the layer mean and variance from the row statistics, the layer deviation, and the stored blend. Each is
  the corresponding expression of the specification, operation for operation.
-/
import proofs.«146430_j1580547973998_1_alg».proof.Proof.Gen.KernelIdeal.Frame
import proofs.«146430_j1580547973998_1_alg».proof.Proof.Spec
import Idealize.ShloMosaic.PureOps.Ideal.Laws
import Idealize.ShloMosaic.Lib.Pipeline.Value
import Idealize.ShloMosaic.Lib.ValueLayout

noncomputable section

namespace Cert.ILN

open Idealize.ShloMosaic Idealize.ShloMosaic.ValueIdx Cert.KernelIdeal Cert.KernelIdeal.Gen

/-- The zero offsets of a whole-block rectangle, however spelt, are the constant zero. -/
private theorem hz : (![0, 0, 0] : Fin 3 → Nat) = fun _ => 0 := funext fun a => by fin_cases a <;> rfl

/-- A `[1, a]` array cast to `[1, a, 1]` reads, at `(u, i, w)`, the operand at `(0, i)`: both row-major positions are `i`. -/
private theorem shapeCast_1a_1a1_apply {α : Type} {a : ℕ} (x : (⟨2, ![1, a]⟩ : Shape).Idx → α)
    (h : (⟨2, ![1, a]⟩ : Shape).ShapeCasts ⟨3, ![1, a, 1]⟩) (u : Fin 1) (i : Fin a) (w : Fin 1) :
    shapeCast ⟨3, ![1, a, 1]⟩ x h (ix3 u i w) = x (ix2 (0 : Fin 1) i) :=
  shapeCast_apply x h _ _ (by
    have hu : u.val = 0 := by omega
    have hw : w.val = 0 := by omega
    rw [Shape.rowMajor_val_three, Shape.rowMajor_val_two]
    show 0 * a + i.val = (u.val * a + i.val) * 1 + w.val
    rw [hu, hw, Nat.zero_mul, Nat.zero_add, Nat.mul_one, Nat.add_zero])

/-- A `[1, 256, 1]` column broadcast to `[1, 256, 4096]` reads, at `(u, c, k)`, the column's entry `c`. -/
private theorem bcast_col_apply {α : Type} (v : S1x256x1.Idx → α) (h : S1x256x1.Broadcasts S1x256x4096)
    (u : Fin 1) (c : Fin 256) (k : Fin 4096) :
    broadcastTo S1x256x4096 v h (ix3 u c k) = v (ix3 (0 : Fin 1) c (0 : Fin 1)) := by
  refine broadcastTo_apply v h (ix3 u c k) (ix3 (0 : Fin 1) c (0 : Fin 1)) fun ax => ?_
  match ax with
  | ⟨0, _⟩ => rfl
  | ⟨1, _⟩ => rfl
  | ⟨2, _⟩ => rfl

/-- A `[1, 1, 1]` value broadcast to `[1, 256, 4096]` reads its one entry everywhere. -/
private theorem bcast_one_apply {α : Type} (v : S1x1x1.Idx → α) (h : S1x1x1.Broadcasts S1x256x4096)
    (u : Fin 1) (c : Fin 256) (k : Fin 4096) :
    broadcastTo S1x256x4096 v h (ix3 u c k) = v (ix3 (0 : Fin 1) (0 : Fin 1) (0 : Fin 1)) := by
  refine broadcastTo_apply v h (ix3 u c k) (ix3 (0 : Fin 1) (0 : Fin 1) (0 : Fin 1)) fun ax => ?_
  match ax with
  | ⟨0, _⟩ => rfl
  | ⟨1, _⟩ => rfl
  | ⟨2, _⟩ => rfl

/-- The sum over the last axis of a `[1, 256, 4096]` block, at row `c`, is the sum of that row's 4096 entries. -/
private theorem rowSum_apply (v : FVec Ideal S1x256x4096 .f32) (h : S1x256x4096.Reduces [2] S1x256) (hφ : FKind.Formats .f32)
    (hacc : (0x00000000#32 : BitVec 32) = FKind.add.neutral .f32 hφ) (c : Fin 256) :
    multiReduction (F := Ideal) .add [2] S1x256 v 0x00000000#32 h hφ hacc (ix2 (0 : Fin 1) c) = ∑ k : Fin 4096, v (ix3 (0 : Fin 1) c k) := by
  refine (Ideal.multiReduction_add_single v 0x00000000#32 h hφ hacc (ix2 (0 : Fin 1) c)).trans ?_
  refine Finset.sum_congr rfl fun k _ => congrArg v (funext fun ax => ?_)
  match ax with
  | ⟨0, _⟩ => exact Fin.ext rfl
  | ⟨1, _⟩ => exact Fin.ext rfl
  | ⟨2, _⟩ => exact Fin.ext rfl

/-- The sum over the middle axis of a `[1, 256, 1]` column is the sum of its 256 entries. -/
private theorem colSum_apply (v : FVec Ideal S1x256x1 .f32) (h : S1x256x1.Reduces [1] S1x1) (hφ : FKind.Formats .f32)
    (hacc : (0x00000000#32 : BitVec 32) = FKind.add.neutral .f32 hφ) :
    multiReduction (F := Ideal) .add [1] S1x1 v 0x00000000#32 h hφ hacc (ix2 (0 : Fin 1) (0 : Fin 1)) = ∑ c : Fin 256, v (ix3 (0 : Fin 1) c (0 : Fin 1)) := by
  refine (Ideal.multiReduction_add_single v 0x00000000#32 h hφ hacc (ix2 (0 : Fin 1) (0 : Fin 1))).trans ?_
  refine Finset.sum_congr rfl fun k _ => congrArg v (funext fun ax => ?_)
  match ax with
  | ⟨0, _⟩ => exact Fin.ext rfl
  | ⟨1, _⟩ => exact Fin.ext rfl
  | ⟨2, _⟩ => exact Fin.ext rfl

/-- A cast to the same shape changes nothing. -/
private theorem pay2_eq (v : Vec Ideal S1x256x4096 .f32) : k0_pay2 (F := Ideal) v = v :=
  shapeCast_self v _
/-- Likewise for ρ, -/
private theorem pay3_eq (v : Vec Ideal S1x256x1 .f32) : k0_pay3 (F := Ideal) v = v :=
  shapeCast_self v _
/-- for γ, -/
private theorem pay4_eq (v : Vec Ideal S1x256x1 .f32) : k0_pay4 (F := Ideal) v = v :=
  shapeCast_self v _
/-- and for β. -/
private theorem pay5_eq (v : Vec Ideal S1x256x1 .f32) : k0_pay5 (F := Ideal) v = v :=
  shapeCast_self v _

/-- The first statistic at channel `c` is the mean of the block's row `c`. -/
private theorem pay6_apply (v : Vec Ideal S1x256x4096 .f32) (c : Fin 256) :
    k0_pay6 (F := Ideal) v (ix3 (0 : Fin 1) c (0 : Fin 1)) = mean fun k => v (ix3 (0 : Fin 1) c k) := by
  unfold k0_pay6 mean c4096
  simp only [divf_apply, broadcast_apply, shapeCast_1a_1a1_apply, pay2_eq]
  exact congrArg (fun t => Ideal.div t _) (rowSum_apply v _ _ _ c)

/-- The deviation at `(c, k)` is the block's value less the mean of row `c`. -/
private theorem pay7_apply (v : Vec Ideal S1x256x4096 .f32) (c : Fin 256) (k : Fin 4096) :
    k0_pay7 (F := Ideal) v (ix3 (0 : Fin 1) c k) = v (ix3 (0 : Fin 1) c k) - mean fun k' => v (ix3 (0 : Fin 1) c k') := by
  unfold k0_pay7
  simp only [subf_apply, bcast_col_apply, pay2_eq, pay6_apply]

/-- The second statistic at channel `c` is the variance of the block's row `c`. -/
private theorem pay8_apply (v : Vec Ideal S1x256x4096 .f32) (c : Fin 256) :
    k0_pay8 (F := Ideal) v (ix3 (0 : Fin 1) c (0 : Fin 1)) = var fun k => v (ix3 (0 : Fin 1) c k) := by
  unfold k0_pay8 var c4096
  simp only [divf_apply, broadcast_apply, shapeCast_1a_1a1_apply]
  refine congrArg (fun t => Ideal.div t _) ((rowSum_apply _ _ _ _ c).trans ?_)
  refine Finset.sum_congr rfl fun k _ => ?_
  rw [mulf_apply, pay7_apply]

/-- A reciprocal square root of a vector reads elementwise. -/
private theorem rsqrt_apply {s : Shape} (a : FVec Ideal s .f32) (i : s.Idx) : rsqrt a i = Ideal.rsqrt (a i) := rfl

/-- The instance normalisation at `(c, k)`: the deviation times the reciprocal root of the row's variance plus ε. -/
private theorem pay9_apply (v : Vec Ideal S1x256x4096 .f32) (c : Fin 256) (k : Fin 4096) :
    k0_pay9 (F := Ideal) v (ix3 (0 : Fin 1) c k)
      = (v (ix3 (0 : Fin 1) c k) - mean fun k' => v (ix3 (0 : Fin 1) c k'))
          * Ideal.rsqrt ((var fun k' => v (ix3 (0 : Fin 1) c k')) + eps) := by
  unfold k0_pay9 eps
  simp only [mulf_apply, bcast_col_apply, rsqrt_apply, addf_apply, broadcast_apply, pay7_apply, pay8_apply]
  rfl

/-- The layer mean is the mean of the 256 row means. -/
private theorem pay10_apply (v : Vec Ideal S1x256x4096 .f32) :
    k0_pay10 (F := Ideal) v (ix3 (0 : Fin 1) (0 : Fin 1) (0 : Fin 1)) = lmeanK fun c k => v (ix3 (0 : Fin 1) c k) := by
  unfold k0_pay10 lmeanK c256
  simp only [divf_apply, broadcast_apply, shapeCast_1a_1a1_apply]
  refine congrArg (fun t => Ideal.div t _) ((colSum_apply _ _ _ _).trans ?_)
  exact Finset.sum_congr rfl fun c _ => pay6_apply v c

/-- The layer variance is the mean over the rows of variance plus squared mean, less the squared layer mean. -/
private theorem pay11_apply (v : Vec Ideal S1x256x4096 .f32) :
    k0_pay11 (F := Ideal) v (ix3 (0 : Fin 1) (0 : Fin 1) (0 : Fin 1)) = lvarK fun c k => v (ix3 (0 : Fin 1) c k) := by
  unfold k0_pay11 lvarK c256
  simp only [subf_apply, mulf_apply, divf_apply, broadcast_apply, shapeCast_1a_1a1_apply, pay10_apply]
  refine congrArg (fun t => Ideal.div t _ - _) ((colSum_apply _ _ _ _).trans ?_)
  refine Finset.sum_congr rfl fun c _ => ?_
  rw [addf_apply, mulf_apply, pay8_apply, pay6_apply]

/-- The layer deviation at `(c, k)` is the block's value less the layer mean. -/
private theorem pay12_apply (v : Vec Ideal S1x256x4096 .f32) (c : Fin 256) (k : Fin 4096) :
    k0_pay12 (F := Ideal) v (ix3 (0 : Fin 1) c k)
      = v (ix3 (0 : Fin 1) c k) - lmeanK fun c' k' => v (ix3 (0 : Fin 1) c' k') := by
  unfold k0_pay12
  simp only [subf_apply, bcast_one_apply, pay2_eq, pay10_apply]

/-- The stored value at `(c, k)` from the six values it is computed from: the blend by ρ of the instance normalisation and
    the layer deviation times the reciprocal root of the layer variance plus ε, scaled by γ and shifted by β. -/
private theorem pay1_apply (v3 v5 v7 : FVec Ideal S1x256x1 .f32) (v23 : FVec Ideal S1x256x4096 .f32) (v35 : FVec Ideal S1x1x1 .f32)
    (v37 : FVec Ideal S1x256x4096 .f32) (c : Fin 256) (k : Fin 4096) :
    k0_pay1 (F := Ideal) v3 v5 v7 v23 v35 v37 (ix3 (0 : Fin 1) c k)
      = (v23 (ix3 (0 : Fin 1) c k) * v3 (ix3 (0 : Fin 1) c (0 : Fin 1))
          + v37 (ix3 (0 : Fin 1) c k) * Ideal.rsqrt (v35 (ix3 (0 : Fin 1) (0 : Fin 1) (0 : Fin 1)) + eps)
            * (one - v3 (ix3 (0 : Fin 1) c (0 : Fin 1)))) * v5 (ix3 (0 : Fin 1) c (0 : Fin 1))
        + v7 (ix3 (0 : Fin 1) c (0 : Fin 1)) := by
  unfold k0_pay1 eps one
  simp only [addf_apply, mulf_apply, subf_apply, bcast_col_apply, bcast_one_apply, rsqrt_apply, broadcast_apply]
  rfl

/-- What the body stores at `(c, k)` of the block is the specification's blend there, with the row's mean and variance and
    the layer statistics taken from the 256 row statistics. -/
theorem out_apply (x0 : Vec Ideal S1x256x4096 .f32) (x1 x2 x3 : Vec Ideal S1x256x1 .f32) (c : Fin 256) (k : Fin 4096) :
    Cert.KernelIdeal.Gen.out0_4 (F := Ideal) x0 x1 x2 x3 (ix3 0 c k)
      = mix (x0 (ix3 0 c k)) (mean fun k' => x0 (ix3 0 c k')) (var fun k' => x0 (ix3 0 c k'))
          (lmeanK fun c' k' => x0 (ix3 0 c' k')) (lvarK fun c' k' => x0 (ix3 0 c' k'))
          (x1 (ix3 0 c 0)) (x2 (ix3 0 c 0)) (x3 (ix3 0 c 0)) := by
  unfold Cert.KernelIdeal.Gen.out0_4
  rw [View.canon_unit_zero hz]
  simp only [View.ld_unit_zero (S := S1x256x4096) hz, View.ld_unit_zero (S := S1x256x1) hz]
  rw [pay1_apply, pay3_eq, pay4_eq, pay5_eq, pay9_apply, pay11_apply, pay12_apply]
  rfl

end Cert.ILN

end
-- ==== Proof.KernelValue.lean ====
/-
  The kernel's result array, read off its run.
  Grid point t handles sample t: its input block is rows (t, ·, ·) of the flattened input [32, 256, 4096], the three
  parameter blocks are the whole [1, 256, 1] arrays, and its output block is rows (t, ·, ·) of the output. So what point t
  writes back is block t of ONE function of the region's input arrays, the 32 blocks tile the output, and the output array
  ends at that function. The flattening before the region and the un-flattening after it are reshapes, which keep the
  row-major position: (n, c, k) of the flat array is (n, c, k / 64, k % 64) of the original.
-/
import proofs.«146430_j1580547973998_1_alg».proof.Proof.Gen.KernelIdeal.Frame
import proofs.«146430_j1580547973998_1_alg».proof.Proof.Spec
import proofs.«146430_j1580547973998_1_alg».proof.Proof.KernelBody
import Idealize.ShloMosaic.Lib.Pipeline.Value
import Idealize.ShloMosaic.Lib.StableHlo.Run

set_option maxRecDepth 16384

noncomputable section

namespace Cert.ILN

open Idealize.ShloMosaic Idealize.ShloMosaic.TcCoe Idealize.ShloMosaic.ValueIdx Idealize.SL.Sem
open Cert.KernelIdeal Cert.KernelIdeal.Gen
open Idealize.ShloMosaic.Pipeline (Dat)

/-- The region's output as one function of its four input arrays: at (n, c, k) the blend of the two normalisations of
    the flat input there, the channel statistics over row (n, c, ·), the layer statistics from the 256 channels of
    sample n. -/
def G4 (A0 : S32x256x4096.Idx → EReal) (A1 A2 A3 : S1x256x1.Idx → EReal) : S32x256x4096.Idx → EReal := fun j =>
  mix (A0 (ix3 (j 0) (j 1) (j 2))) (mean fun k' => A0 (ix3 (j 0) (j 1) k')) (var fun k' => A0 (ix3 (j 0) (j 1) k'))
    (lmeanK fun c' k' => A0 (ix3 (j 0) c' k')) (lvarK fun c' k' => A0 (ix3 (j 0) c' k'))
    (A1 (ix3 0 (j 1) 0)) (A2 (ix3 0 (j 1) 0)) (A3 (ix3 0 (j 1) 0))

/-- A block whose rows are rows (n, ·, ·) of the input array, with the parameter arrays whole, is sent by the body to
    rows (n, ·, ·) of G4. -/
theorem body_block (A0 : S32x256x4096.Idx → EReal) (A1 A2 A3 : S1x256x1.Idx → EReal)
    (x0 : Vec Ideal S1x256x4096 .f32) (x1 x2 x3 : Vec Ideal S1x256x1 .f32) (n : Fin 32)
    (h0 : ∀ (c : Fin 256) (k : Fin 4096), x0 (ix3 0 c k) = A0 (ix3 n c k))
    (h1 : ∀ c : Fin 256, x1 (ix3 0 c 0) = A1 (ix3 0 c 0)) (h2 : ∀ c : Fin 256, x2 (ix3 0 c 0) = A2 (ix3 0 c 0))
    (h3 : ∀ c : Fin 256, x3 (ix3 0 c 0) = A3 (ix3 0 c 0)) (c : Fin 256) (k : Fin 4096) :
    out0_4 (F := Ideal) x0 x1 x2 x3 (ix3 0 c k) = G4 A0 A1 A2 A3 (ix3 n c k) := by
  rw [out_apply]
  unfold G4
  simp only [h0, h1, h2, h3]

/-- The printed index maps over the grid: the input's and the output's block index is (t, 0, 0), the parameters' (0, 0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 3) = 0 ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

variable (m : (ℓ : Loc nD τ sig) → Buf (Elt Ideal) ℓ) (ρ : Dev nD → PrngReg)

/-- The grid has 32 points; a point as a sample number. -/
def sampleOf (t : Fin cfg0.N) : Fin 32 := t.cast N_0

/-- WHAT POINT t WRITES BACK is block t of G4 of the arrays as the region finds them. -/
theorem flushed_eq (c : Dev nD) (t : Fin cfg0.N) :
    (dats m 0 c).flushed 4 t
      = ((cfg0.win 4).blk t).view.read (Elt Ideal) (G4 (V m c main_v0) (V m c main_v1) (V m c main_v2) (V m c main_v3)) := by
  show (cfg0.win 4).cut (grid0.coords t) ((dats m 0 c).after 4 t) = _
  rw [after0_4]
  obtain ⟨e00, e01, e02, e10, e11, e12, e20, e21, e22, e30, e31, e32, e40, e41, e42⟩ := idx_facts t
  funext y
  show out0_4 (iblk m c 0 t) (iblk m c 1 t) (iblk m c 2 t) (iblk m c 3 t) y
    = G4 (V m c main_v0) (V m c main_v1) (V m c main_v2) (V m c main_v3) (((cfg0.win 4).blk t).view.emb y)
  have hy : y = ix3 0 (y 1) (y 2) := by
    funext a
    match a with
    | ⟨0, _⟩ => exact Fin.ext (by show (y 0).val = 0; have hj : (y 0).val < 1 := (y 0).isLt; omega)
    | ⟨1, _⟩ => rfl
    | ⟨2, _⟩ => rfl
  have hemb : ((cfg0.win 4).blk t).view.emb y = ix3 (sampleOf t) (y 1) (y 2) := by
    funext a; apply Fin.ext
    match a with
    | ⟨0, _⟩ => show win0_4.index t (0 : Fin 3) * 1 + 1 * (y 0).val = t.val; have hj : (y 0).val < 1 := (y 0).isLt; omega
    | ⟨1, _⟩ => show win0_4.index t (1 : Fin 3) * 256 + 1 * (y 1).val = (y 1).val; omega
    | ⟨2, _⟩ => show win0_4.index t (2 : Fin 3) * 4096 + 1 * (y 2).val = (y 2).val; omega
  rw [hemb, hy]
  refine body_block _ _ _ _ _ _ _ _ (sampleOf t) ?_ ?_ ?_ ?_ (y 1) (y 2)
  · intro c' k
    show V m c main_v0 (((cfg0.win 0).blk t).view.emb (ix3 0 c' k)) = V m c main_v0 (ix3 (sampleOf t) c' k)
    refine congrArg _ (funext fun a => Fin.ext ?_)
    match a with
    | ⟨0, _⟩ => show win0_0.index t (0 : Fin 3) * 1 + 1 * 0 = t.val; omega
    | ⟨1, _⟩ => show win0_0.index t (1 : Fin 3) * 256 + 1 * c'.val = c'.val; omega
    | ⟨2, _⟩ => show win0_0.index t (2 : Fin 3) * 4096 + 1 * k.val = k.val; omega
  · intro c'
    show V m c main_v1 (((cfg0.win 1).blk t).view.emb (ix3 0 c' 0)) = V m c main_v1 (ix3 0 c' 0)
    refine congrArg _ (funext fun a => Fin.ext ?_)
    match a with
    | ⟨0, _⟩ => show win0_1.index t (0 : Fin 3) * 1 + 1 * 0 = 0; omega
    | ⟨1, _⟩ => show win0_1.index t (1 : Fin 3) * 256 + 1 * c'.val = c'.val; omega
    | ⟨2, _⟩ => show win0_1.index t (2 : Fin 3) * 1 + 1 * 0 = 0; omega
  · intro c'
    show V m c main_v2 (((cfg0.win 2).blk t).view.emb (ix3 0 c' 0)) = V m c main_v2 (ix3 0 c' 0)
    refine congrArg _ (funext fun a => Fin.ext ?_)
    match a with
    | ⟨0, _⟩ => show win0_2.index t (0 : Fin 3) * 1 + 1 * 0 = 0; omega
    | ⟨1, _⟩ => show win0_2.index t (1 : Fin 3) * 256 + 1 * c'.val = c'.val; omega
    | ⟨2, _⟩ => show win0_2.index t (2 : Fin 3) * 1 + 1 * 0 = 0; omega
  · intro c'
    show V m c main_v3 (((cfg0.win 3).blk t).view.emb (ix3 0 c' 0)) = V m c main_v3 (ix3 0 c' 0)
    refine congrArg _ (funext fun a => Fin.ext ?_)
    match a with
    | ⟨0, _⟩ => show win0_3.index t (0 : Fin 3) * 1 + 1 * 0 = 0; omega
    | ⟨1, _⟩ => show win0_3.index t (1 : Fin 3) * 256 + 1 * c'.val = c'.val; omega
    | ⟨2, _⟩ => show win0_3.index t (2 : Fin 3) * 1 + 1 * 0 = 0; omega

/-- An index of the output array is in point t's block iff each coordinate is in the block's range on its axis. -/
theorem mem_blk (t : Fin cfg0.N) (i : S32x256x4096.Idx) :
    i ∈ ((cfg0.win 4).blk t).view.set ↔ ∀ a : Fin 3, win0_4.index t a * S1x256x4096.size a ≤ (i a).val ∧ (i a).val < win0_4.index t a * S1x256x4096.size a + S1x256x4096.size a := by
  show i ∈ ((View.whole main_v4).slice (win0_4.rect t)).set ↔ _
  rw [View.set_slice_whole, Rect.mem_set_unit]
  exact Iff.rfl

/-- The 32 blocks tile the output: row (n, ·, ·) is in the block of point n. -/
theorem cover (i : S32x256x4096.Idx) : ∃ t : Fin cfg0.N, (cfg0.win 4).flush t = true ∧ i ∈ ((cfg0.win 4).blk t).view.set := by
  have hi0 : (i 0).val < 32 := (i 0).isLt
  have hi1 : (i 1).val < 256 := (i 1).isLt
  have hi2 : (i 2).val < 4096 := (i 2).isLt
  have hN : grid0.N = 32 := N_0
  refine ⟨⟨(i 0).val, by show (i 0).val < grid0.N; omega⟩, flush0_4 _, ?_⟩
  rw [mem_blk]
  obtain ⟨e00, e01, e02, e10, e11, e12, e20, e21, e22, e30, e31, e32, e40, e41, e42⟩ := idx_facts ⟨(i 0).val, by show (i 0).val < grid0.N; omega⟩
  intro a
  match a with
  | ⟨0, _⟩ => show win0_4.index _ (0 : Fin 3) * 1 ≤ (i 0).val ∧ (i 0).val < win0_4.index _ (0 : Fin 3) * 1 + 1; simp only [e40]; omega
  | ⟨1, _⟩ => show win0_4.index _ (1 : Fin 3) * 256 ≤ (i 1).val ∧ (i 1).val < win0_4.index _ (1 : Fin 3) * 256 + 256; simp only [e41]; omega
  | ⟨2, _⟩ => show win0_4.index _ (2 : Fin 3) * 4096 ≤ (i 2).val ∧ (i 2).val < win0_4.index _ (2 : Fin 3) * 4096 + 4096; simp only [e42]; omega

/-- THE OUTPUT ARRAY after the run is G4 of the arrays as the region finds them. -/
theorem final (c : Dev nD) :
    (dats m 0 c).arrAt 4 cfg0.N = G4 (V m c main_v0) (V m c main_v1) (V m c main_v2) (V m c main_v3) :=
  (dats m 0 c).arrAt_eq_of_cover 4 _ (fun t _ => flushed_eq m c t) cover

/-- G4 at explicit coordinates. -/
theorem G4_apply (A0 : S32x256x4096.Idx → EReal) (A1 A2 A3 : S1x256x1.Idx → EReal) (n : Fin 32) (cc : Fin 256) (k : Fin 4096) :
    G4 A0 A1 A2 A3 (ix3 n cc k)
      = mix (A0 (ix3 n cc k)) (mean fun k' => A0 (ix3 n cc k')) (var fun k' => A0 (ix3 n cc k'))
          (lmeanK fun c' k' => A0 (ix3 n c' k')) (lvarK fun c' k' => A0 (ix3 n c' k'))
          (A1 (ix3 0 cc 0)) (A2 (ix3 0 cc 0)) (A3 (ix3 0 cc 0)) := rfl

/-- The flattening before the region keeps the row-major position: the flat input at (n, c, k) is the input at
    (n, c, k / 64, k % 64). -/
theorem V_v0 (c : Dev nD) (n : Fin 32) (cc : Fin 256) (k : Fin 4096) :
    V m c main_v0 (ix3 n cc k) = m ((c.tc : Thread nD τ).loc main_arg0) (ix4 n cc (rowOf k) (colOf k)) := by
  have e : (V m c main_v0 : S32x256x4096.Idx → EReal)
      = shapeCast S32x256x4096 (m ((c.tc : Thread nD τ).loc main_arg0)) shapeCasts_S32x256x64x64_S32x256x4096 := by
    show StableHlo.after hostOps0 (fun b => m (c, b)) (Proc.devRef .tc main_v0) = _
    after_results
    rfl
  rw [e]
  refine shapeCast_apply _ _ _ _ ?_
  show ((⟨4, ![32, 256, 64, 64]⟩ : Shape).rowMajor (ix4 n cc (rowOf k) (colOf k))).val
    = ((⟨3, ![32, 256, 4096]⟩ : Shape).rowMajor (ix3 n cc k)).val
  rw [Shape.rowMajor_val_four, Shape.rowMajor_val_three]
  show ((n.val * 256 + cc.val) * 64 + k.val / 64) * 64 + k.val % 64 = (n.val * 256 + cc.val) * 4096 + k.val
  omega

/-- Likewise each parameter: the [1, 256, 1] array at (0, c, 0) is the [1, 256, 1, 1] argument at (0, c, 0, 0). -/
theorem V_v1 (c : Dev nD) (cc : Fin 256) :
    V m c main_v1 (ix3 0 cc 0) = m ((c.tc : Thread nD τ).loc main_arg1) (ix4 0 cc 0 0) := by
  have e : (V m c main_v1 : S1x256x1.Idx → EReal)
      = shapeCast S1x256x1 (m ((c.tc : Thread nD τ).loc main_arg1)) shapeCasts_S1x256x1x1_S1x256x1 := by
    show StableHlo.after hostOps0 (fun b => m (c, b)) (Proc.devRef .tc main_v1) = _
    after_results
    rfl
  rw [e]
  refine shapeCast_apply _ _ _ _ ?_
  show ((⟨4, ![1, 256, 1, 1]⟩ : Shape).rowMajor (ix4 0 cc 0 0)).val = ((⟨3, ![1, 256, 1]⟩ : Shape).rowMajor (ix3 0 cc 0)).val
  rw [Shape.rowMajor_val_four, Shape.rowMajor_val_three]
  show ((0 * 256 + cc.val) * 1 + 0) * 1 + 0 = (0 * 256 + cc.val) * 1 + 0
  omega
theorem V_v2 (c : Dev nD) (cc : Fin 256) :
    V m c main_v2 (ix3 0 cc 0) = m ((c.tc : Thread nD τ).loc main_arg2) (ix4 0 cc 0 0) := by
  have e : (V m c main_v2 : S1x256x1.Idx → EReal)
      = shapeCast S1x256x1 (m ((c.tc : Thread nD τ).loc main_arg2)) shapeCasts_S1x256x1x1_S1x256x1 := by
    show StableHlo.after hostOps0 (fun b => m (c, b)) (Proc.devRef .tc main_v2) = _
    after_results
    rfl
  rw [e]
  refine shapeCast_apply _ _ _ _ ?_
  show ((⟨4, ![1, 256, 1, 1]⟩ : Shape).rowMajor (ix4 0 cc 0 0)).val = ((⟨3, ![1, 256, 1]⟩ : Shape).rowMajor (ix3 0 cc 0)).val
  rw [Shape.rowMajor_val_four, Shape.rowMajor_val_three]
  show ((0 * 256 + cc.val) * 1 + 0) * 1 + 0 = (0 * 256 + cc.val) * 1 + 0
  omega
theorem V_v3 (c : Dev nD) (cc : Fin 256) :
    V m c main_v3 (ix3 0 cc 0) = m ((c.tc : Thread nD τ).loc main_arg3) (ix4 0 cc 0 0) := by
  have e : (V m c main_v3 : S1x256x1.Idx → EReal)
      = shapeCast S1x256x1 (m ((c.tc : Thread nD τ).loc main_arg3)) shapeCasts_S1x256x1x1_S1x256x1 := by
    show StableHlo.after hostOps0 (fun b => m (c, b)) (Proc.devRef .tc main_v3) = _
    after_results
    rfl
  rw [e]
  refine shapeCast_apply _ _ _ _ ?_
  show ((⟨4, ![1, 256, 1, 1]⟩ : Shape).rowMajor (ix4 0 cc 0 0)).val = ((⟨3, ![1, 256, 1]⟩ : Shape).rowMajor (ix3 0 cc 0)).val
  rw [Shape.rowMajor_val_four, Shape.rowMajor_val_three]
  show ((0 * 256 + cc.val) * 1 + 0) * 1 + 0 = (0 * 256 + cc.val) * 1 + 0
  omega

/-- Position 64 · h + w of the flattened image. -/
def flatPos (h w : Fin 64) : Fin 4096 := ⟨64 * h.val + w.val, by omega⟩
theorem rowOf_flatPos (h w : Fin 64) : rowOf (flatPos h w) = h := Fin.ext (by show (64 * h.val + w.val) / 64 = h.val; omega)
theorem colOf_flatPos (h w : Fin 64) : colOf (flatPos h w) = w := Fin.ext (by show (64 * h.val + w.val) % 64 = w.val; omega)

/-- The un-flattening after the region: the result at (n, c, h, w) is the region's output array at (n, c, 64·h + w). -/
theorem tail_v5 (c : Dev nD) (n : Fin 32) (cc : Fin 256) (h w : Fin 64) :
    Pipeline.afterTail₀ cfgs (dats m) 0 (V0 m) [hostOps1] c main_v5 (ix4 n cc h w)
      = (dats m 0 c).arrAt 4 cfg0.N (ix3 n cc (flatPos h w)) := by
  unfold Pipeline.afterTail₀
  show StableHlo.after hostOps1 _ (Proc.devRef .tc main_v5) (ix4 n cc h w) = _
  after_results
  show shapeCast S32x256x64x64 (Pipeline.withArrays (cfgs 0).spec c (V0 m c) (fun w => (dats m 0 c).arrAt w (cfgs 0).N)
      (Proc.devRef .tc main_v4)) shapeCasts_S32x256x4096_S32x256x64x64 (ix4 n cc h w) = _
  refine (shapeCast_apply _ _ _ (ix3 n cc (flatPos h w)) ?_).trans
    (congrFun (Pipeline.withArrays_arr spec0 launch0.win.arr_inj c _ _ 4) _)
  show ((⟨3, ![32, 256, 4096]⟩ : Shape).rowMajor (ix3 n cc (flatPos h w))).val
    = ((⟨4, ![32, 256, 64, 64]⟩ : Shape).rowMajor (ix4 n cc h w)).val
  rw [Shape.rowMajor_val_four, Shape.rowMajor_val_three]
  show (n.val * 256 + cc.val) * 4096 + (64 * h.val + w.val) = ((n.val * 256 + cc.val) * 64 + h.val) * 64 + w.val
  omega

/-- THE RESULT: the un-flattened output is the specification's array of the four arguments, the layer statistics
    taken from the per-channel statistics. -/
theorem result_eq (c : Dev nD) :
    Pipeline.afterTail₀ cfgs (dats m) 0 (V0 m) [hostOps1] c main_v5
      = GK (m ((c.tc : Thread nD τ).loc main_arg0)) (m ((c.tc : Thread nD τ).loc main_arg1))
          (m ((c.tc : Thread nD τ).loc main_arg2)) (m ((c.tc : Thread nD τ).loc main_arg3)) := by
  funext i
  obtain ⟨n, cc, h, w, rfl⟩ : ∃ (n : Fin 32) (cc : Fin 256) (h w : Fin 64), i = ix4 n cc h w := ⟨i 0, i 1, i 2, i 3, eq_ix4 i⟩
  rw [tail_v5, final, G4_apply]
  simp only [V_v0 m c, V_v1 m c, V_v2 m c, V_v3 m c, rowOf_flatPos, colOf_flatPos]
  rfl

/-- THE RUN, READ: every weakly fair execution ends with the result at the specification's array and the arguments
    unchanged. -/
theorem run : θ_run defs (onTc (τ := τ) (main (F := Ideal))) ⟨m, fun _ => 0, ρ⟩ (fun r => ∀ c : Dev nD,
      r.2.mem ((c.tc : Thread nD τ).loc main_v5)
        = GK (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v5 (Pipeline.mem_restRefs_of main_v5 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.ILN

end
-- ==== Proof.lean ====
/-
  Instance-layer normalisation: the kernel against its reference, over the extended reals.

  Both programs compute ((x − μ_c)·rsqrt(σ²_c + ε)·ρ_c + (x − L)·rsqrt(V + ε)·(1 − ρ_c))·γ_c + β_c with the same
  instance statistics μ_c, σ²_c of each (sample, channel) image. They differ in the layer statistics L, V of a sample:
  the reference averages over all 256 · 4096 values, the kernel averages the 256 channel means and takes the mean over
  channels of σ²_c + μ_c² less L². On real data these agree (Algebra.lean), and under the precondition every entry of x is
  real (Finite.lean); the arguments of the two reciprocal square roots are then equal, so that function is never opened.
  The kernel's result array is read off its run (KernelValue.lean: one grid point per sample, the 32 output blocks tile the
  array; the reshapes around the region keep row-major positions) over the body read index by index (KernelBody.lean);
  the reference's off its operations one at a time (RefValue.lean, its sums over image and channel axes re-indexed by
  position: Sums.lean). The kernel's idealization rewrote nothing, so there is nothing to preserve.
-/
import proofs.«146430_j1580547973998_1_alg».proof.Defs
import proofs.«146430_j1580547973998_1_alg».proof.Proof.Gen.Kernel
import proofs.«146430_j1580547973998_1_alg».proof.Proof.Gen.Kernel.Skeleton
import proofs.«146430_j1580547973998_1_alg».proof.Proof.Gen.Kernel.Launch
import proofs.«146430_j1580547973998_1_alg».proof.Proof.Gen.Kernel.Points
import proofs.«146430_j1580547973998_1_alg».proof.Proof.Gen.Kernel.Frame
import proofs.«146430_j1580547973998_1_alg».proof.Proof.Gen.KernelIdeal
import proofs.«146430_j1580547973998_1_alg».proof.Proof.Gen.KernelIdeal.Skeleton
import proofs.«146430_j1580547973998_1_alg».proof.Proof.Gen.KernelIdeal.Launch
import proofs.«146430_j1580547973998_1_alg».proof.Proof.Gen.KernelIdeal.Points
import proofs.«146430_j1580547973998_1_alg».proof.Proof.Gen.KernelIdeal.Frame
import proofs.«146430_j1580547973998_1_alg».proof.Proof.Gen.ReferenceIdeal
import proofs.«146430_j1580547973998_1_alg».proof.Proof.Gen.Pre_finite_inputs
import proofs.«146430_j1580547973998_1_alg».proof.Proof.Gen.ReferenceIdeal.Run
import proofs.«146430_j1580547973998_1_alg».proof.Proof.Gen.ReferenceIdeal.Read
import proofs.«146430_j1580547973998_1_alg».proof.Proof.Spec
import proofs.«146430_j1580547973998_1_alg».proof.Proof.Algebra
import proofs.«146430_j1580547973998_1_alg».proof.Proof.Finite
import proofs.«146430_j1580547973998_1_alg».proof.Proof.RefValue
import proofs.«146430_j1580547973998_1_alg».proof.Proof.KernelValue
import Idealize.ShloMosaic.Adequacy
import Idealize.ShloMosaic.Init

noncomputable section

namespace Cert.Proof

open Idealize.ShloMosaic Idealize.ShloMosaic.TcCoe Idealize.SL.Sem

/-- The two kernel programs run and keep their arguments: the generated frames. -/
theorem frame_k : Cert.frame_Kernel := fun m ρ _ => Cert.Kernel.Gen.frame m ρ
theorem frame_ki : Cert.frame_KernelIdeal := fun m ρ _ => Cert.KernelIdeal.Gen.frame m ρ
/-- The reference runs and keeps its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end at one array: the kernel's at the specification with
    the layer statistics from the channel statistics, the reference's at the specification with them taken directly,
    and the two agree because x is real under the precondition. -/
theorem algebraic : Cert.algebraic_KernelIdeal_ReferenceIdeal := by
  intro m ρ m' ρ' hpre hagree
  refine ⟨_, Cert.ILN.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v46_eq, Cert.ILN.ref_eq_GR, (hagree c).1, (hagree c).2.1, (hagree c).2.2.1,
    (hagree c).2.2.2]
  exact (Cert.ILN.GK_eq_GR _ _ _ _ (Cert.ILN.real_of_pre _ _ _ _ (hpre c))).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
